-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S2048x64, .f32⟩
  | .local _ .vmem, ⟨4, _⟩ => ⟨S1024x2048, .f32⟩
  | .local _ .vmem, ⟨5, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  reduces_S1024x64_S1024 : S1024x64.Reduces [1] S1024
  shapeCasts_S1024_S1024x1 : S1024.ShapeCasts S1024x1
  reduces_S2048x64_S2048 : S2048x64.Reduces [1] S2048
  shapeCasts_S2048_S1x2048 : S2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Gaussian.lean ====
/-
  The Gaussian kernel matrix of two families of 8192 points in 64 dimensions, as one function of the two
  coordinate arrays.

  For points x_p and y_q the entry at (p, q) is exp(-(max(|x_p|^2 + |y_q|^2 - 2 <x_p, y_q>, 0))): the squared
  distance, expanded into the two squared norms and the inner product, clamped below at zero, negated and
  exponentiated. Everything is read on the extended reals. The factors 2 and -1 stay the f32 words both programs
  carry, so neither is ever evaluated; the clamp's zero is the extended real 0.
-/
import Idealize.ShloMosaic.Lib.ValueIdx
import Idealize.ShloMosaic.PureOps.Ideal.Laws

noncomputable section

namespace Cert.Gaussian

open Idealize.ShloMosaic Idealize.ShloMosaic.ValueIdx

/-- One entry from its three sums: the two squared norms `sx`, `sy` and the inner product `cr`. -/
def entry (sx sy cr : EReal) : EReal :=
  Ideal.exp (Ideal.ofBits .f32 0xBF800000#32 * max (sx + sy - Ideal.ofBits .f32 0x40000000#32 * cr) 0)

/-- The entry at row `p` and column `q`: the sums run over the 64 coordinates of point `p` of `x` and point `q`
    of `y`. -/
def gramAt (x y : (⟨2, ![8192, 64]⟩ : Shape).Idx → EReal) (p q : Fin 8192) : EReal :=
  entry (∑ d : Fin 64, x (ix2 p d) * x (ix2 p d)) (∑ d : Fin 64, y (ix2 q d) * y (ix2 q d))
    (∑ d : Fin 64, x (ix2 p d) * y (ix2 q d))

/-- The whole 8192 by 8192 matrix. -/
def gram (x y : (⟨2, ![8192, 64]⟩ : Shape).Idx → EReal) : (⟨2, ![8192, 8192]⟩ : Shape).Idx → EReal :=
  fun i => gramAt x y (i 0) (i 1)

theorem gram_ix2 (x y : (⟨2, ![8192, 64]⟩ : Shape).Idx → EReal) (p q : Fin 8192) :
    gram x y (ix2 p q) = gramAt x y p q := rfl

end Cert.Gaussian

end
-- ==== Proof.RefGram.lean ====
/-
  The reference computes the Gaussian kernel matrix.

  Read one host operation at a time, the reference's result at (p, q) is the exponential of minus the clamped
  expression whose three sums run over the 64 coordinates: the row sums of the squared arrays (each started from
  the zero word, which is the extended real 0) broadcast along a column and along a row, and the product of x
  with the transpose of y. Each composed index function lands on row `p` of x or row `q` of y.
-/
import proofs.«131345_j65481071405061_1_alg».proof.Proof.Gen.ReferenceIdeal.Read
import proofs.«131345_j65481071405061_1_alg».proof.Proof.Gaussian

noncomputable section

namespace Cert.ReferenceIdeal.RefValue

open Cert.ReferenceIdeal Cert.ReferenceIdeal.Gen Cert.ReferenceIdeal.Read
open Idealize.ShloMosaic Idealize.ShloMosaic.ValueIdx Cert.Gaussian

/-- The squared norm of x broadcast to the matrix reads, at (p, q), along row `p` of x. -/
theorem norm_x_row (p q : Fin 8192) (k : Fin 64) :
    idx_main_v1 (idx_main_v5 (idx_main_v7 (ix2 p q))) k = ix2 p k :=
  funext fun a => Fin.ext (by match a with | ⟨0, _⟩ => rfl | ⟨1, _⟩ => rfl)

/-- The squared norm of y broadcast to the matrix reads, at (p, q), along row `q` of y. -/
theorem norm_y_row (p q : Fin 8192) (k : Fin 64) :
    idx_main_v3 (idx_main_v6 (idx_main_v8 (ix2 p q))) k = ix2 q k :=
  funext fun a => Fin.ext (by match a with | ⟨0, _⟩ => rfl | ⟨1, _⟩ => rfl)

/-- The product's left factor at (p, q) runs along row `p` of x, -/
theorem cross_x_row (p q : Fin 8192) (k : Fin 64) : lidx_main_v4 (ix2 p q) k = ix2 p k :=
  funext fun a => Fin.ext (by match a with | ⟨0, _⟩ => rfl | ⟨1, _⟩ => rfl)

/-- and its right factor along row `q` of y. -/
theorem cross_y_row (p q : Fin 8192) (k : Fin 64) : ridx_main_v4 (ix2 p q) k = ix2 q k :=
  funext fun a => Fin.ext (by match a with | ⟨0, _⟩ => rfl | ⟨1, _⟩ => rfl)

/-- The reference's last stage, at the ideal instance, is the Gaussian kernel matrix of its two arguments. -/
theorem reference_eq_gram (x y : (⟨2, ![8192, 64]⟩ : Shape).Idx → EReal) :
    val_main_v17 (F := Ideal) x y = gram x y := by
  funext i
  obtain ⟨p, q, rfl⟩ : ∃ (p q : Fin 8192), i = ix2 p q := ⟨i 0, i 1, eq_ix2 i⟩
  rw [gram_ix2, val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply, val_main_v1_apply,
    val_main_v8_apply, val_main_v6_apply, val_main_v3_apply, val_main_cst_apply, val_main_cst_0_apply]
  simp only [val_main_v0_apply, val_main_v2_apply, norm_x_row, norm_y_row, cross_x_row, cross_y_row,
    Ideal.hostUnary_exp_def, Ideal.mulf_def, Ideal.maximumf_def, Ideal.subf_def, Ideal.addf_def, Ideal.ofBits_def,
    Ideal.ofBits_zero_f32, zero_add]
  rfl

end Cert.ReferenceIdeal.RefValue

end
-- ==== Proof.LibDotNT.lean ====
/-
  A matrix product with the right operand transposed, at the ideal instance, read at an entry.

  For two rank-2 operands of shapes [M, K] and [N, K] whose dimension numbers contract the SECOND axis of each
  (the left matrix times the transpose of the right), the product at row `p` and column `j` is the plain sum over
  `a : Fin K` of `l (p, a) * r (j, a)` on the extended reals: the inner product of row `p` of the left operand with
  row `j` of the right. The dimension numbers enter only through four coordinate facts (which coordinate of each
  operand is the output's and which is the contracted one); a caller proves those four for its own record and
  gets the sum, for a kernel's product into a zero accumulator and for the host's product alike.
-/
import Idealize.ShloMosaic.Lib.ValueIdx
import Idealize.ShloMosaic.PureOps.Ideal.Laws

noncomputable section

namespace Cert.Lib.DotNT

open Idealize.ShloMosaic Idealize.ShloMosaic.ValueIdx

/-- The contraction sum re-indexed from the record's one-axis contraction index to `Fin K`: both operands are read
    along a row, the left along row `p` and the right along row `j`. -/
theorem contraction_rows {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's matrix product into the zero accumulator, at the ideal instance, read at `(p, j)`. -/
theorem matmul_zero_rows {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_rows D hr hs hl0 hl1 hr0 hr1 l r p j

end Cert.Lib.DotNT

end
-- ==== Proof.LibKeepdims.lean ====
/-
  A row sum kept as a column or as a row, and spread back over a matrix, read at an entry.

  A vector.multi_reduction over the second axis of an [n, k] array is, at row `p`, the sum of that row. Kept as an
  [n, 1] column and broadcast to [n, b] it reads, at (p, c), the sum of row `p` whatever the column `c`; kept as a
  [1, n] row and broadcast to [a, n] it reads, at (r, p), the sum of row `p` whatever the row `r`. The casts and
  broadcasts only move the index; the arithmetic is the one sum.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.Keepdims

open Idealize.ShloMosaic Idealize.ShloMosaic.ValueIdx

variable {α : Type}

/-- An `[a]` array cast to the column shape `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of an `[n, k]` array, at the ideal instance, read at row `p`: the sum of the row's
    `k` entries. -/
theorem row_sum {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (p : Fin n) :
    multiReduction .add [1] ⟨1, ![n]⟩ src 0x00000000#32 h hφ hacc (ix1 p) = ∑ d : Fin k, src (ix2 p d) := by
  refine (Ideal.multiReduction_add_single src 0x00000000#32 h hφ hacc (ix1 p)).trans ?_
  exact Finset.sum_congr rfl fun d _ => congrArg src (funext fun ax => Fin.ext (by
    match ax with
    | ⟨0, _⟩ => rfl
    | ⟨1, _⟩ => rfl))

/-- The row sums kept as a column and spread over `b` columns: at `(p, c)` the sum of row `p`. -/
theorem column_of_row_sums {n k b : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, b]⟩)
    (p : Fin n) (c : Fin b) :
    broadcastTo ⟨2, ![n, b]⟩ (shapeCast ⟨2, ![n, 1]⟩ (multiReduction .add [1] ⟨1, ![n]⟩ src 0x00000000#32 h hφ hacc) hc) hb (ix2 p c)
      = ∑ d : Fin k, src (ix2 p d) :=
  (broadcastTo_a1_ab_apply _ hb p c).trans ((shapeCast_a_a1_apply _ hc p 0).trans (row_sum src h hφ hacc p))

/-- The row sums kept as a row and spread over `a` rows: at `(r, p)` the sum of row `p`. -/
theorem row_of_row_sums {n k a : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![1, n]⟩) (hb : (⟨2, ![1, n]⟩ : Shape).Broadcasts ⟨2, ![a, n]⟩)
    (r : Fin a) (p : Fin n) :
    broadcastTo ⟨2, ![a, n]⟩ (shapeCast ⟨2, ![1, n]⟩ (multiReduction .add [1] ⟨1, ![n]⟩ src 0x00000000#32 h hφ hacc) hc) hb (ix2 r p)
      = ∑ d : Fin k, src (ix2 p d) :=
  (broadcastTo_1b_ab_apply _ hb r p).trans ((shapeCast_a_1a_apply _ hc 0 p).trans (row_sum src h hφ hacc p))

end Cert.Lib.Keepdims

end
-- ==== Proof.BlockEntry.lean ====
/-
  One grid step of the kernel, read at an entry of its output block.

  A step loads 1024 points of x and 2048 points of y and stores a 1024 by 2048 block. At (p, q) of the block the
  stored value is the Gaussian kernel entry of the block's point `p` of x and point `q` of y: the squared norms are
  the row sums of the squared blocks (kept as a column for x, as a row for y, and spread over the block), and the
  inner product is the block of x times the transpose of the block of y, accumulated from zero.
-/
import proofs.«131345_j65481071405061_1_alg».proof.Proof.Gen.KernelIdeal.Skeleton
import proofs.«131345_j65481071405061_1_alg».proof.Proof.Gaussian
import proofs.«131345_j65481071405061_1_alg».proof.Proof.LibDotNT
import proofs.«131345_j65481071405061_1_alg».proof.Proof.LibKeepdims

noncomputable section

namespace Cert.KernelIdeal.BlockValue

open Cert.KernelIdeal Cert.KernelIdeal.Gen
open Idealize.ShloMosaic Idealize.ShloMosaic.ValueIdx Cert.Gaussian

/-! ## The product's dimension numbers, coordinate by coordinate -/

theorem lhs_row (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_contr (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_row (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_contr (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-! ## The three arrays the step combines -/

/-- The squared norms of the block of x, one per row, spread over the 2048 columns. -/
def normsX (x0 : FVec Ideal S1024x64 .f32) : FVec Ideal S1024x2048 .f32 :=
  broadcastTo S1024x2048 (shapeCast S1024x1 (multiReduction .add [1] S1024 (mulf x0 x0) 0x00000000#32 reduces_S1024x64_S1024 (.inl rfl) rfl) shapeCasts_S1024_S1024x1) broadcasts_S1024x1_S1024x2048

/-- The squared norms of the block of y, one per column, spread over the 1024 rows. -/
def normsY (x1 : FVec Ideal S2048x64 .f32) : FVec Ideal S1024x2048 .f32 :=
  broadcastTo S1024x2048 (shapeCast S1x2048 (multiReduction .add [1] S2048 (mulf x1 x1) 0x00000000#32 reduces_S2048x64_S2048 (.inl rfl) rfl) shapeCasts_S2048_S1x2048) broadcasts_S1x2048_S1024x2048

/-- The inner products of every point of the block of x with every point of the block of y. -/
def cross (x0 : FVec Ideal S1024x64 .f32) (x1 : FVec Ideal S2048x64 .f32) : FVec Ideal S1024x2048 .f32 :=
  matmul dot_S1024x64_S2048x64_S1024x2048_1_1_0_0_n_n none x0 x1 (constant S1024x2048 .f32 0x00000000#32)

theorem normsX_apply (x0 : FVec Ideal S1024x64 .f32) (p : Fin 1024) (q : Fin 2048) :
    normsX x0 (ix2 p q) = ∑ d : Fin 64, x0 (ix2 p d) * x0 (ix2 p d) :=
  Cert.Lib.Keepdims.column_of_row_sums (mulf x0 x0) reduces_S1024x64_S1024 (.inl rfl) rfl shapeCasts_S1024_S1024x1 broadcasts_S1024x1_S1024x2048 p q

theorem normsY_apply (x1 : FVec Ideal S2048x64 .f32) (p : Fin 1024) (q : Fin 2048) :
    normsY x1 (ix2 p q) = ∑ d : Fin 64, x1 (ix2 q d) * x1 (ix2 q d) :=
  Cert.Lib.Keepdims.row_of_row_sums (mulf x1 x1) reduces_S2048x64_S2048 (.inl rfl) rfl shapeCasts_S2048_S1x2048 broadcasts_S1x2048_S1024x2048 p q

theorem cross_apply (x0 : FVec Ideal S1024x64 .f32) (x1 : FVec Ideal S2048x64 .f32) (p : Fin 1024) (q : Fin 2048) :
    cross x0 x1 (ix2 p q) = ∑ d : Fin 64, x0 (ix2 p d) * x1 (ix2 q d) :=
  Cert.Lib.DotNT.matmul_zero_rows dot_S1024x64_S2048x64_S1024x2048_1_1_0_0_n_n none rfl rfl lhs_row lhs_contr rhs_row rhs_contr x0 x1 p q

/-! ## The stored value -/

/-- The step's stored value is the exponential of minus the clamped combination of those three arrays. -/
theorem pay_eq (x0 : FVec Ideal S1024x64 .f32) (x1 : FVec Ideal S2048x64 .f32) :
    k0_pay1 (F := Ideal) x0 x1
      = exp (mulf (broadcast S1024x2048 (Scalar.ofBits .f32 0xBF800000#32))
          (maximumf (subf (addf (normsX x0) (normsY x1)) (mulf (broadcast S1024x2048 (Scalar.ofBits .f32 0x40000000#32)) (cross x0 x1)))
            (broadcast S1024x2048 (Scalar.ofBits .f32 0x00000000#32)))) := rfl

/-- At (p, q) of the block: the Gaussian kernel entry of point `p` of the block of x and point `q` of the block
    of y. -/
theorem payload_entry (x0 : FVec Ideal S1024x64 .f32) (x1 : FVec Ideal S2048x64 .f32) (p : Fin 1024) (q : Fin 2048) :
    k0_pay1 (F := Ideal) x0 x1 (ix2 p q)
      = entry (∑ d : Fin 64, x0 (ix2 p d) * x0 (ix2 p d)) (∑ d : Fin 64, x1 (ix2 q d) * x1 (ix2 q d))
          (∑ d : Fin 64, x0 (ix2 p d) * x1 (ix2 q d)) := by
  rw [pay_eq]
  show Ideal.exp (Ideal.ofBits .f32 0xBF800000#32 * max (normsX x0 (ix2 p q) + normsY x1 (ix2 p q)
    - Ideal.ofBits .f32 0x40000000#32 * cross x0 x1 (ix2 p q)) (Ideal.ofBits .f32 0x00000000#32)) = _
  rw [normsX_apply, normsY_apply, cross_apply, Ideal.ofBits_zero_f32]
  rfl

end Cert.KernelIdeal.BlockValue

end
-- ==== Proof.KernelGram.lean ====
/-
  The kernel computes the Gaussian kernel matrix.

  The grid is 8 by 4: step (i, j) reads points 1024 i … 1024 i + 1023 of x and points 2048 j … 2048 j + 2047 of y
  and writes the 1024 by 2048 block of the result at block index (i, j). By the per-entry reading of one step,
  what a step writes back is exactly that block of the Gaussian kernel matrix of the whole arrays: entry (p, q) of
  the block is entry (1024 i + p, 2048 j + q) of the matrix, and the points it reads are those rows of x and y.
  The 32 blocks tile the 8192 by 8192 result, so after the run the result array is the whole matrix.
-/
import proofs.«131345_j65481071405061_1_alg».proof.Proof.Gen.KernelIdeal.Value
import proofs.«131345_j65481071405061_1_alg».proof.Proof.BlockEntry

noncomputable section

namespace Cert.KernelIdeal.GramValue

open Cert.KernelIdeal Cert.KernelIdeal.Gen Idealize.ShloMosaic Idealize.ShloMosaic.TcCoe Idealize.SL.Sem
open Idealize.ShloMosaic.Pipeline (Dat)
open Idealize.ShloMosaic.ValueIdx Cert.Gaussian

variable (m : (ℓ : Loc nD τ sig) → Buf (Elt Ideal) ℓ) (ρ : Dev nD → PrngReg)

theorem hz : (![0, 0] : Fin 2 → Nat) = fun _ => 0 := funext fun a => by fin_cases a <;> rfl

/-- The two coordinate arrays as the region finds them, on core `c`. -/
abbrev xarr (c : Dev nD) : FVec Ideal S8192x64 .f32 := V m c main_arg0
abbrev yarr (c : Dev nD) : FVec Ideal S8192x64 .f32 := V m c main_arg1

/-- The printed index maps, decided over the 32 grid points: the block of x moves with the result's block row, the
    block of y with its block column, neither moves along the 64 coordinates, and the result's block indices range
    over 8 by 4. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 3 :=
  (by decide +kernel : ∀ t : Fin grid0.N, _)

/-- Every block of the 8 by 4 tiling is some grid point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What grid point `t` writes back is block `t` of the Gaussian kernel matrix of the two arrays. -/
theorem flushed_eq (c : Dev nD) (t : Fin cfg0.N) :
    (dats m 0 c).flushed 2 t = ((cfg0.win 2).blk t).view.read (Elt Ideal) (gram (xarr m c) (yarr m c)) := by
  rw [Value.flushed2]
  unfold out0_2
  rw [View.canon_unit_zero hz]
  simp only [View.ld_unit_zero (S := S1024x64) hz, View.ld_unit_zero (S := S2048x64) hz]
  obtain ⟨e0, e1, e2, e3, e4, e5⟩ := idx_facts t
  funext j
  obtain ⟨p, q, rfl⟩ : ∃ (p : Fin 1024) (q : Fin 2048), j = ix2 p q := ⟨j 0, j 1, eq_ix2 j⟩
  show k0_pay1 (F := Ideal) (iblk m c 0 t) (iblk m c 1 t) (ix2 p q)
    = gram (xarr m c) (yarr m c) (((cfg0.win 2).blk t).view.emb (ix2 p q))
  have hR : win0_2.index t (0 : Fin 2) * 1024 + p.val < 8192 := by have := p.isLt; omega
  have hC : win0_2.index t (1 : Fin 2) * 2048 + q.val < 8192 := by have := q.isLt; omega
  -- the block of x at the point is rows 1024 i … of the array,
  have hx : ∀ d : Fin 64, iblk m c 0 t (ix2 p d) = xarr m c (ix2 ⟨win0_2.index t (0 : Fin 2) * 1024 + p.val, hR⟩ d) := fun d => by
    show V m c main_arg0 (((cfg0.win 0).blk t).view.emb (ix2 p d)) = V m c main_arg0 (ix2 ⟨win0_2.index t (0 : Fin 2) * 1024 + p.val, hR⟩ d)
    refine congrArg _ (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 64 + 1 * d.val = d.val; omega
  -- the block of y rows 2048 j … of the array,
  have hy : ∀ d : Fin 64, iblk m c 1 t (ix2 q d) = yarr m c (ix2 ⟨win0_2.index t (1 : Fin 2) * 2048 + q.val, hC⟩ d) := fun d => by
    show V m c main_arg1 (((cfg0.win 1).blk t).view.emb (ix2 q d)) = V m c main_arg1 (ix2 ⟨win0_2.index t (1 : Fin 2) * 2048 + q.val, hC⟩ d)
    refine congrArg _ (funext fun a => Fin.ext ?_)
    match a with
    | ⟨0, _⟩ => show win0_1.index t (0 : Fin 2) * 2048 + 1 * q.val = win0_2.index t (1 : Fin 2) * 2048 + q.val; omega
    | ⟨1, _⟩ => show win0_1.index t (1 : Fin 2) * 64 + 1 * d.val = d.val; omega
  -- and the entry of the block sits at that row and column of the matrix.
  have ho : ((cfg0.win 2).blk t).view.emb (ix2 p q)
      = ix2 (⟨win0_2.index t (0 : Fin 2) * 1024 + p.val, hR⟩ : Fin 8192) (⟨win0_2.index t (1 : Fin 2) * 2048 + q.val, hC⟩ : Fin 8192) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 2048 + 1 * q.val = win0_2.index t (1 : Fin 2) * 2048 + q.val; omega
  rw [ho, gram_ix2]
  refine (BlockValue.payload_entry (iblk m c 0 t) (iblk m c 1 t) p q).trans ?_
  unfold gramAt
  exact congr (congr (congrArg entry (Finset.sum_congr rfl fun d _ => by rw [hx d]))
    (Finset.sum_congr rfl fun d _ => by rw [hy d])) (Finset.sum_congr rfl fun d _ => by rw [hx d, hy d])

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- The blocks tile the result: entry (r, s) lies in the block of the point with block index (r / 1024, s / 2048). -/
theorem covered (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The result array after the run is the Gaussian kernel matrix of the two argument arrays. -/
theorem final (c : Dev nD) :
    (dats m 0 c).arrAt 2 cfg0.N = gram (m ((c : Thread nD τ).loc main_arg0)) (m ((c : Thread nD τ).loc main_arg1)) :=
  (dats m 0 c).arrAt_eq_of_cover 2 (gram (xarr m c) (yarr m c)) (fun t _ => flushed_eq m c t) covered

/-- The kernel's run, read: the result holds the matrix, the arguments are unchanged. -/
theorem run : θ_run defs (onTc (τ := τ) (main (F := Ideal))) ⟨m, fun _ => 0, ρ⟩ fun r => ∀ c : Dev nD,
      r.2.mem ((c : Thread nD τ).loc main_v0) = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.GramValue

end
-- ==== Proof.lean ====
/-
  The Gaussian (radial basis function) kernel matrix of 8192 points x against 8192 points y in 64 dimensions:
  entry (p, q) is exp(-max(|x_p|^2 + |y_q|^2 - 2 <x_p, y_q>, 0)).

  The kernel computes it block by block over an 8 by 4 grid: each step takes 1024 points of x and 2048 points of y,
  forms the squared norms as row sums of the squared blocks, the inner products as one block of x times the
  transpose of the block of y, and stores the 1024 by 2048 block of the result. The reference computes the same
  expression on the whole arrays: row sums of the squared arrays, x times the transpose of y, the same clamp and
  exponential. On the extended reals both are the one function `Cert.Gaussian.gram` of the two arrays, entry by
  entry, with the same grouping of the sums and the same three constants (2, 0 and -1 as the same f32 words on both
  sides), so no algebraic law and no finiteness of the inputs is needed: the two sums over the 64 coordinates are
  the same sums, and a block's entry (p, q) is the matrix's entry (1024 i + p, 2048 j + q).

  The three frames are the generated frame runs; the idealization rewrote nothing, so `preserves` is trivial.
-/
import proofs.«131345_j65481071405061_1_alg».proof.Defs
import proofs.«131345_j65481071405061_1_alg».proof.Proof.Gen.Kernel
import proofs.«131345_j65481071405061_1_alg».proof.Proof.Gen.Kernel.Skeleton
import proofs.«131345_j65481071405061_1_alg».proof.Proof.Gen.Kernel.Launch
import proofs.«131345_j65481071405061_1_alg».proof.Proof.Gen.Kernel.Points
import proofs.«131345_j65481071405061_1_alg».proof.Proof.Gen.Kernel.Frame
import proofs.«131345_j65481071405061_1_alg».proof.Proof.Gen.KernelIdeal
import proofs.«131345_j65481071405061_1_alg».proof.Proof.Gen.KernelIdeal.Skeleton
import proofs.«131345_j65481071405061_1_alg».proof.Proof.Gen.KernelIdeal.Launch
import proofs.«131345_j65481071405061_1_alg».proof.Proof.Gen.KernelIdeal.Points
import proofs.«131345_j65481071405061_1_alg».proof.Proof.Gen.KernelIdeal.Frame
import proofs.«131345_j65481071405061_1_alg».proof.Proof.Gen.ReferenceIdeal
import proofs.«131345_j65481071405061_1_alg».proof.Proof.Gen.Pre_finite_inputs
import proofs.«131345_j65481071405061_1_alg».proof.Proof.Gen.KernelIdeal.Value
import proofs.«131345_j65481071405061_1_alg».proof.Proof.Gen.ReferenceIdeal.Run
import proofs.«131345_j65481071405061_1_alg».proof.Proof.Gen.ReferenceIdeal.Read
import proofs.«131345_j65481071405061_1_alg».proof.Proof.RefGram
import proofs.«131345_j65481071405061_1_alg».proof.Proof.KernelGram
import Idealize.ShloMosaic.Adequacy
import Idealize.ShloMosaic.Init

noncomputable section

namespace Cert.Proof

open Idealize.ShloMosaic Idealize.ShloMosaic.TcCoe Idealize.SL.Sem

/-- The word-level kernel runs and leaves x and y as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves x and y as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and y, both programs end with the Gaussian kernel matrix of x and y in their
    result: the kernel by its 32 blocks, the reference operation by operation. -/
theorem algebraic : Cert.algebraic_KernelIdeal_ReferenceIdeal := by
  intro m ρ m' ρ' _ hagree
  refine ⟨_, Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v17_eq]
  exact Cert.ReferenceIdeal.RefValue.reference_eq_gram _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
